-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x8192 : Shape := ⟨3, ![4, 3, 8192]⟩
abbrev S_ : Shape := ⟨0, ![]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel

variable [Facts]

def fn {F : FTy → Type} [FloatOps F] (main_arg0 : FVec F S4x3x8192 .f32) (main_arg1 : FVec F S4x3x8192 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_v4 : FVec F S4x3x8192 .f32 := Host.absf main_arg1
  let main_cst_0 : FVec F S_ .f32 := constant S_ .f32 0x7F800000#32
  let main_v5 : FVec F S4x3x8192 .f32 := broadcastInDim S4x3x8192 ![] bcast_S_S4x3x8192 main_cst_0
  let main_v6 : IVec S4x3x8192 1 := cmpf .olt main_v4 main_v5
  let main_c_1 : IVec S_ 1 := constantI S_ 1 1#1
  let main_v7 : IVec S_ 1 := (fun x v => Host.reduce IntOp.andi x v reducesTo_S4x3x8192_S_d0_1_2 h_S_) main_v6 main_c_1
  let main_v8 : IVec S_ 1 := andi main_v3 main_v7
  main_v8
-- ==== Kernel.lean ====
abbrev S4x3x8192 : Shape := ⟨3, ![4, 3, 8192]⟩
abbrev S4x8192 : Shape := ⟨2, ![4, 8192]⟩
abbrev S4x3x128 : Shape := ⟨3, ![4, 3, 128]⟩
abbrev S4x128 : Shape := ⟨2, ![4, 128]⟩
abbrev S4x1x128 : Shape := ⟨3, ![4, 1, 128]⟩
abbrev S4x1x8192 : Shape := ⟨3, ![4, 1, 8192]⟩
abbrev S4x128x1 : Shape := ⟨3, ![4, 128, 1]⟩
abbrev S4x128x8192 : Shape := ⟨3, ![4, 128, 8192]⟩
abbrev S_ : Shape := ⟨0, ![]⟩

abbrev nBuf : Space → Nat
  | .hbm => 13
  | .vmem => 7
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x8192, .f32⟩
  | .hbm, ⟨3, _⟩ => ⟨S4x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S4x3x128, .f32⟩
  | .local _ .vmem, ⟨1, _⟩ => ⟨S4x3x128, .f32⟩
  | .local _ .vmem, ⟨2, _⟩ => ⟨S4x3x8192, .f32⟩
  | .local _ .vmem, ⟨3, _⟩ => ⟨S4x128, .f32⟩
  | .local _ .vmem, ⟨4, _⟩ => ⟨S4x128, .f32⟩
  | .local _ .vmem, ⟨5, _⟩ => ⟨S4x8192, .f32⟩
  | .local _ .vmem, ⟨6, _⟩ => ⟨S4x8192, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c63_i32 : BitVec 32 := 63#32
  let v61 : BitVec 1 := Scalar.cmpi .eq arg0 c63_i32
  let v62 : BitVec 32 := Scalar.extui v61
  let c0_i32_13 : BitVec 32 := 0#32
  let v63 : BitVec 1 := Scalar.cmpi .ne v62 c0_i32_13
  v63

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S4x3x128_S4x3x128_0_0_0 : ∀ a, (![0, 0, 0] : Fin 3 → Nat) a + S4x3x128.size a ≤ S4x3x128.size a
  h_S4x3x128 : 0 < S4x3x128.numel
  inb_S4x3x8192_S4x3x8192_0_0_0 : ∀ a, (![0, 0, 0] : Fin 3 → Nat) a + S4x3x8192.size a ≤ S4x3x8192.size a
  h_S4x3x8192 : 0 < S4x3x8192.numel
  slices_S4x3x128_o0_0_0_S4x1x128 : S4x3x128.Slices ![0, 0, 0] S4x1x128
  shapeCasts_S4x1x128_S4x128 : S4x1x128.ShapeCasts S4x128
  slices_S4x3x128_o0_1_0_S4x1x128 : S4x3x128.Slices ![0, 1, 0] S4x1x128
  slices_S4x3x128_o0_2_0_S4x1x128 : S4x3x128.Slices ![0, 2, 0] S4x1x128
  slices_S4x3x8192_o0_0_0_S4x1x8192 : S4x3x8192.Slices ![0, 0, 0] S4x1x8192
  shapeCasts_S4x1x8192_S4x8192 : S4x1x8192.ShapeCasts S4x8192
  slices_S4x3x8192_o0_1_0_S4x1x8192 : S4x3x8192.Slices ![0, 1, 0] S4x1x8192
  slices_S4x3x8192_o0_2_0_S4x1x8192 : S4x3x8192.Slices ![0, 2, 0] S4x1x8192
  shapeCasts_S4x128_S4x128x1 : S4x128.ShapeCasts S4x128x1
  shapeCasts_S4x8192_S4x1x8192 : S4x8192.ShapeCasts S4x1x8192
  broadcasts_S4x128x1_S4x128x8192 : S4x128x1.Broadcasts S4x128x8192
  broadcasts_S4x1x8192_S4x128x8192 : S4x1x8192.Broadcasts S4x128x8192
  reduces_S4x128x8192_S4x128 : S4x128x8192.Reduces [2] S4x128
  reduces_S4x128x8192_S4x8192 : S4x128x8192.Reduces [1] S4x8192
  inb_S4x128_S4x128_0_0 : ∀ a, (![0, 0] : Fin 2 → Nat) a + S4x128.size a ≤ S4x128.size a
  h_S4x128 : 0 < S4x128.numel
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  reducesTo_S4x8192_S_d0_1 : S4x8192.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x128.size a ≤ S4x3x8192.size a
  hwx0_0 : ∀ i : grid0.Coords, EltTy.bits .f32 = 32 ∨ (Rect.block (s := S4x3x8192) S4x3x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x3x8192.size a ≤ S4x3x8192.size a
  hwx0_1 : ∀ i : grid0.Coords, EltTy.bits .f32 = 32 ∨ (Rect.block (s := S4x3x8192) S4x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x8192.size a
  hwx0_2 : ∀ i : grid0.Coords, EltTy.bits .f32 = 32 ∨ (Rect.block (s := S4x8192) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x8192.size a ≤ S4x8192.size a
  hwx0_3 : ∀ i : grid0.Coords, EltTy.bits .f32 = 32 ∨ (Rect.block (s := S4x8192) S4x8192.size (cc0_transform_3 i) (hinb0_3 i)).WholeWords (EltTy.packing .f32)

variable [Facts₀]

abbrev win0_0 : Pipeline.Window sig grid0 :=
  Pipeline.Window.ofSpec (Memref.whole main_arg0) S4x3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4x8192.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S4x3x8192 : Shape := ⟨3, ![4, 3, 8192]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x3x8192, .f32⟩
  | .hbm, ⟨3, _⟩ => ⟨S_, .f32⟩
  | .hbm, ⟨4, _⟩ => ⟨S4x8192, .f32⟩
  | .hbm, ⟨5, _⟩ => ⟨S4x3x8192, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S4x3x8192_S4x8192_d1 : S4x3x8192.ReducesTo [1] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d1 : S4x8192x8192.ReducesTo [1] S4x8192
  reducesTo_S4x8192x8192_S4x8192_d2 : S4x8192x8192.ReducesTo [2] S4x8192
  reducesTo_S4x8192_S_d0_1 : S4x8192.ReducesTo [0, 1] S_
  dot_S4x3x8192_S4x3x8192_S4x8192x8192_1_1_2_2_0_0_wf : DotDims.WF S4x3x8192 S4x3x8192 S4x8192x8192 [1] [1] [2] [2] [0] [0]

variable [Facts₀]

def dot_S4x3x8192_S4x3x8192_S4x8192x8192_1_1_2_2_0_0 : DotDims S4x3x8192 S4x3x8192 S4x8192x8192 where
  lhsContracting := [1]
  rhsContracting := [1]
  lhsNonContracting := [2]
  rhsNonContracting := [2]
  lhsBatch := [0]
  rhsBatch := [0]
  wf := dot_S4x3x8192_S4x3x8192_S4x8192x8192_1_1_2_2_0_0_wf

class Facts : Prop extends Facts₀ where

variable [Facts]
-- ==== Proof.Chamfer.lean ====
/-
  The Chamfer distance between two clouds of 8192 points of ℝ³, four clouds in a batch, on the extended reals.

  For clouds P, G : [4, 3, 8192] (batch, coordinate, point) the distance of point n of P to point m of G is
      dist b n m = sqrt (max (|P_n|² + |G_m|² − 2 · ⟨P_n, G_m⟩, ε)),
  the squared lengths and the inner product written out over the three coordinates (`pointDist`). For every point of P the
  nearest point of G is the minimum over m (`nearestOfG`), for every point of G the nearest point of P is
  the minimum over n (`nearestOfP`); a minimum is the fold of `min` from the pattern of +∞.

  The second half is the one law the tiled computation needs: a minimum over 0 … N−1 taken tile by tile, each
  tile's minimum folded into a running minimum, is the minimum over everything (`RunMin`). It is carried by the
  universal property of a minimum (x ≤ min ↔ x ≤ every element), so it needs no finiteness and no evaluation of
  the initial pattern.
-/
import Idealize.ShloMosaic.PureOps.Ideal
import Idealize.ShloMosaic.Lib.ValueIdx
import Mathlib.Data.Finset.Fold

noncomputable section

namespace Cert.Chamfer

open Idealize.ShloMosaic Idealize.ShloMosaic.ValueIdx

/-- A batch of four clouds of 8192 points, coordinate-major. -/
abbrev Cloud : Shape := ⟨3, ![4, 3, 8192]⟩
/-- One number per point of a cloud. -/
abbrev PerPoint : Shape := ⟨2, ![4, 8192]⟩

/-- The three patterns the computation uses: 2, ε = f32(1e-12) and +∞. -/
abbrev two : EReal := Ideal.ofBits .f32 0x40000000#32
abbrev eps : EReal := Ideal.ofBits .f32 0x2B8CBCCC#32
abbrev inf : EReal := Ideal.ofBits .f32 0x7F800000#32

/-- |p|², the three squares added left to right. -/
def sqLen (p : Fin 3 → EReal) : EReal := p 0 * p 0 + p 1 * p 1 + p 2 * p 2

/-- ⟨p, g⟩, the three products added left to right. -/
def inner (p g : Fin 3 → EReal) : EReal := p 0 * g 0 + p 1 * g 1 + p 2 * g 2

/-- The guarded Euclidean distance of two points of ℝ³, by the expansion |p|² + |g|² − 2⟨p, g⟩. -/
def pointDist (p g : Fin 3 → EReal) : EReal :=
  Ideal.sqrt (max (sqLen p + sqLen g - two * inner p g) eps)

/-- Point n of cloud b of X, as its three coordinates. -/
def point (X : Cloud.Idx → EReal) (b : Fin 4) (n : Fin 8192) : Fin 3 → EReal := fun c => X (ix3 b c n)

/-- The distance of point n of P to point m of G. -/
def dist (P G : Cloud.Idx → EReal) (b : Fin 4) (n m : Fin 8192) : EReal :=
  pointDist (point P b n) (point G b m)

/-- For each point of P, the distance to the nearest point of G. -/
def nearestOfG (P G : Cloud.Idx → EReal) : PerPoint.Idx → EReal :=
  fun j => (Finset.univ : Finset (Fin 8192)).fold min inf (fun m => dist P G (j 0) (j 1) m)

/-- For each point of G, the distance to the nearest point of P. -/
def nearestOfP (P G : Cloud.Idx → EReal) : PerPoint.Idx → EReal :=
  fun j => (Finset.univ : Finset (Fin 8192)).fold min inf (fun n => dist P G (j 0) n (j 1))

/-! ## A minimum taken tile by tile -/

/-- `s` is the minimum, from `top`, of `f` over the indices below `k`: stated by what lies below it. -/
def RunMin {N : ℕ} (top : EReal) (f : Fin N → EReal) (k : ℕ) (s : EReal) : Prop :=
  ∀ x : EReal, x ≤ s ↔ x ≤ top ∧ ∀ n : Fin N, n.val < k → x ≤ f n

/-- The first tile's minimum is the running minimum below the tile's width (the tile starts at `k = 0`). -/
theorem runMin_first {N : ℕ} (top : EReal) (f : Fin N → EReal) (k B : ℕ) (hk0 : k = 0) (hk : k + B ≤ N) :
    RunMin top f (k + B)
      ((Finset.univ : Finset (Fin B)).fold min top (fun r => f ⟨k + r.val, by have := r.isLt; omega⟩)) := by
  intro x
  rw [Finset.le_fold_min]
  refine and_congr_right fun _ => ⟨fun h n hn => ?_, fun h r _ => h _ (by show k + r.val < k + B; have := r.isLt; omega)⟩
  have := h ⟨n.val, by omega⟩ (Finset.mem_univ _)
  have e : (⟨k + n.val, by omega⟩ : Fin N) = n := Fin.ext (by show k + n.val = n.val; omega)
  rwa [e] at this

/-- Folding the next tile's minimum into the running minimum moves it one tile on. -/
theorem runMin_step {N : ℕ} (top : EReal) (f : Fin N → EReal) (k B : ℕ) (hk : k + B ≤ N) (s : EReal)
    (hs : RunMin top f k s) :
    RunMin top f (k + B)
      (min s ((Finset.univ : Finset (Fin B)).fold min top (fun r => f ⟨k + r.val, by have := r.isLt; omega⟩))) := by
  intro x
  rw [le_min_iff, hs x, Finset.le_fold_min]
  constructor
  · rintro ⟨⟨ht, h1⟩, _, h2⟩
    refine ⟨ht, fun n hn => ?_⟩
    by_cases hlt : n.val < k
    · exact h1 n hlt
    · have hr : n.val - k < B := by omega
      have := h2 ⟨n.val - k, hr⟩ (Finset.mem_univ _)
      have e : (⟨k + (n.val - k), by omega⟩ : Fin N) = n := Fin.ext (by show k + (n.val - k) = n.val; omega)
      rwa [e] at this
  · rintro ⟨ht, h⟩
    exact ⟨⟨ht, fun n hn => h n (by omega)⟩, ht, fun r _ => h _ (by show k + r.val < k + B; have := r.isLt; omega)⟩

/-- Once every index is below the bound the running minimum is the minimum over everything. -/
theorem runMin_full {N : ℕ} (top : EReal) (f : Fin N → EReal) (k : ℕ) (hk : N ≤ k) (s : EReal)
    (hs : RunMin top f k s) : s = (Finset.univ : Finset (Fin N)).fold min top f := by
  refine eq_of_forall_le_iff fun x => ?_
  rw [hs x, Finset.le_fold_min]
  exact and_congr_right fun _ =>
    ⟨fun h n _ => h n (lt_of_lt_of_le n.isLt hk), fun h n _ => h n (Finset.mem_univ _)⟩

end Cert.Chamfer

end
-- ==== Proof.RefSide.lean ====
/-
  The reference computes the Chamfer distances of `Chamfer.lean`.

  Read one operation at a time, the reference's [4, 8192, 8192] array of distances holds `dist P G b n m` at
  (b, n, m): its sums over the coordinate axis and its contraction are three-term sums, added left to right
  from a zero that disappears. Its two minimum-reductions, over axis 1 and over axis 2, are then the folds of
  `min` over the points of P and over the points of G.
-/
import proofs.«146092_j26259430047859_1_alg».proof.Proof.Gen.ReferenceIdeal.Run
import proofs.«146092_j26259430047859_1_alg».proof.Proof.Gen.ReferenceIdeal.Read
import proofs.«146092_j26259430047859_1_alg».proof.Proof.Chamfer
import Idealize.ShloMosaic.PureOps.Ideal.Laws

noncomputable section

namespace Cert.Chamfer.Ref

open Idealize.ShloMosaic Idealize.ShloMosaic.ValueIdx Cert.ReferenceIdeal Cert.ReferenceIdeal.Gen Cert.ReferenceIdeal.Read Cert.Chamfer

/-! ### The index maps of the reference's layout operations, at coordinates -/

theorem sqP_idx (b : Fin 4) (n m : Fin 8192) (k : Fin 3) :
    idx_main_v1 (idx_main_v5 (idx_main_v7 (ix3 b n m))) k = ix3 b k n :=
  funext fun a => Fin.ext (by match a with | ⟨0, _⟩ => rfl | ⟨1, _⟩ => rfl | ⟨2, _⟩ => rfl)

theorem sqG_idx (b : Fin 4) (n m : Fin 8192) (k : Fin 3) :
    idx_main_v3 (idx_main_v6 (idx_main_v8 (ix3 b n m))) k = ix3 b k m :=
  funext fun a => Fin.ext (by match a with | ⟨0, _⟩ => rfl | ⟨1, _⟩ => rfl | ⟨2, _⟩ => rfl)

theorem dotP_idx (b : Fin 4) (n m : Fin 8192) (k : Fin 3) : lidx_main_v4 (ix3 b n m) k = ix3 b k n :=
  funext fun a => Fin.ext (by match a with | ⟨0, _⟩ => rfl | ⟨1, _⟩ => rfl | ⟨2, _⟩ => rfl)

theorem dotG_idx (b : Fin 4) (n m : Fin 8192) (k : Fin 3) : ridx_main_v4 (ix3 b n m) k = ix3 b k m :=
  funext fun a => Fin.ext (by match a with | ⟨0, _⟩ => rfl | ⟨1, _⟩ => rfl | ⟨2, _⟩ => rfl)

/-- The reference's array of distances at (b, n, m). -/
theorem dists_apply (P G : Cloud.Idx → EReal) (b : Fin 4) (n m : Fin 8192) :
    val_main_v15 (F := Ideal) P G (ix3 b n m) = dist P G b n m := by
  rw [val_main_v15_apply, val_main_v14_apply, val_main_v12_apply, val_main_v13_apply, val_main_cst_2_apply,
    val_main_v9_apply, val_main_v11_apply, val_main_v10_apply, val_main_cst_1_apply, val_main_v4_apply,
    val_main_v7_apply, val_main_v5_apply, val_main_v1_apply, val_main_v8_apply, val_main_v6_apply, val_main_v3_apply]
  simp only [Fin.sum_univ_three, val_main_v0_apply, val_main_v2_apply, val_main_cst_apply, val_main_cst_0_apply,
    sqP_idx, sqG_idx, dotP_idx, dotG_idx, Ideal.ofBits_def, Ideal.ofBits_zero_f32, zero_add, Ideal.mulf_def,
    Ideal.addf_def, Ideal.subf_def, Ideal.maximumf_def, Ideal.hostUnary_sqrt_def]
  rfl

/-- The minimum over the points of P (the reduction over axis 1). -/
theorem nearestOfP_eq (P G : Cloud.Idx → EReal) : val_main_v16 (F := Ideal) P G = nearestOfP P G := by
  funext j
  unfold val_main_v16
  rw [Host.reduce_eq_fold_single FloatOps.minimumf _ _ reducesTo_S4x8192x8192_S4x8192_d1 (by decide) h_S_ j]
  refine Finset.fold_congr fun n _ => ?_
  exact (congrArg (val_main_v15 (F := Ideal) P G) (funext fun a => Fin.ext (by
    match a with | ⟨0, _⟩ => rfl | ⟨1, _⟩ => rfl | ⟨2, _⟩ => rfl))).trans (dists_apply P G (j 0) n (j 1))

/-- The minimum over the points of G (the reduction over axis 2). -/
theorem nearestOfG_eq (P G : Cloud.Idx → EReal) : val_main_v17 (F := Ideal) P G = nearestOfG P G := by
  funext j
  unfold val_main_v17
  rw [Host.reduce_eq_fold_single FloatOps.minimumf _ _ reducesTo_S4x8192x8192_S4x8192_d2 (by decide) h_S_ j]
  refine Finset.fold_congr fun m _ => ?_
  exact (congrArg (val_main_v15 (F := Ideal) P G) (funext fun a => Fin.ext (by
    match a with | ⟨0, _⟩ => rfl | ⟨1, _⟩ => rfl | ⟨2, _⟩ => rfl))).trans (dists_apply P G (j 0) (j 1) m)

end Cert.Chamfer.Ref

end
-- ==== Proof.LibUnitAxes.lean ====
/-
  Unit axes in the middle and at the end of a rank-3 shape, read at an index given by coordinates.
  A shape cast that drops or inserts a unit axis keeps the row-major position, so it reads the operand at the
  index with the same non-unit coordinates; a broadcast along a unit axis reads the operand at coordinate 0 there.
  Stated for any extents a, b, c.
-/
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## The compositions a kernel prints: a coordinate row taken out, a column and a row spread over a box -/

/-- Row `o` of the middle axis of an `[a, k, n]` array, sliced out and cast to `[a, n]`, reads the array at
    `(i, o, j)`. -/
theorem shapeCast_slice_axis1_apply {a k n : ℕ} (o : ℕ) (X : (⟨3, ![a, k, n]⟩ : Shape).Idx → α)
    (hs : (⟨3, ![a, k, n]⟩ : Shape).Slices ![0, o, 0] ⟨3, ![a, 1, n]⟩)
    (hc : (⟨3, ![a, 1, n]⟩ : Shape).ShapeCasts ⟨2, ![a, n]⟩) (i : Fin a) (j : Fin n) :
    shapeCast ⟨2, ![a, n]⟩ (extractStridedSlice ⟨3, ![a, 1, n]⟩ ![0, o, 0] X hs) hc (ix2 i j)
      = X (ix3 i ⟨o, Nat.lt_of_lt_of_le (Nat.lt_succ_self o) (hs.2 1)⟩ j) :=
  (shapeCast_a1b_ab_apply _ hc i j).trans (slice3_axis1_apply o X hs i 0 j _ rfl)

/-- An `[a, b]` array cast to a column `[a, b, 1]` and broadcast to `[a, b, c]` reads, at `(i, j, k)`, the array
    at `(i, j)`. -/
theorem broadcastTo_shapeCast_ab1_apply {a b c : ℕ} (v : (⟨2, ![a, b]⟩ : Shape).Idx → α)
    (hc : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ v hc) hb (ix3 i j k) = v (ix2 i j) :=
  (broadcastTo_ab1_abc_apply _ hb i j k).trans (shapeCast_ab_ab1_apply v hc i j 0)

/-- An `[a, c]` array cast to a row `[a, 1, c]` and broadcast to `[a, b, c]` reads, at `(i, j, k)`, the array at
    `(i, k)`. -/
theorem broadcastTo_shapeCast_a1c_apply {a b c : ℕ} (v : (⟨2, ![a, c]⟩ : Shape).Idx → α)
    (hc : (⟨2, ![a, c]⟩ : Shape).ShapeCasts ⟨3, ![a, 1, c]⟩)
    (hb : (⟨3, ![a, 1, c]⟩ : Shape).Broadcasts ⟨3, ![a, b, c]⟩) (i : Fin a) (j : Fin b) (k : Fin c) :
    broadcastTo ⟨3, ![a, b, c]⟩ (shapeCast ⟨3, ![a, 1, c]⟩ v hc) hb (ix3 i j k) = v (ix2 i k) :=
  (broadcastTo_a1c_abc_apply _ hb i j k).trans (shapeCast_ab_a1b_apply v hc i 0 k)

end Idealize.ShloMosaic.ValueIdx
-- ==== Proof.LibMinReduce.lean ====
/-
  A float `vector.multi_reduction <minimumf>` over ONE axis, read at the ideal values: at each kept index it is the
  fold of `min`, from the accumulator's value, over that axis's coordinates (the companion of the library's reading
  of `<maximumf>`). Any rank, axis and extents.
-/
import Idealize.ShloMosaic.PureOps.Ideal.Laws

namespace Idealize.ShloMosaic.Ideal

variable {φ : FTy}

theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.KernelPayload.lean ====
/-
  What the kernel's body computes from one tile of P and the whole of G, at the ideal values.

  The body holds a [4, 3, 128] tile x0 of P and all of G as x1. Its [4, 128, 8192] array of distances has, at
  (b, r, m), the distance of the tile's point r to point m of G: the coordinate rows are sliced out, the squared
  lengths spread as a column and as a row over the box, the inner product formed coordinate by coordinate. The
  two reductions are folds of `min`: over m for each point of the tile, over the tile's points r for each point
  of G; the running minimum it keeps for G is the old one met with the tile's.
-/
import proofs.«146092_j26259430047859_1_alg».proof.Proof.Gen.KernelIdeal.Skeleton
import proofs.«146092_j26259430047859_1_alg».proof.Proof.Chamfer
import proofs.«146092_j26259430047859_1_alg».proof.Proof.LibUnitAxes
import proofs.«146092_j26259430047859_1_alg».proof.Proof.LibMinReduce

noncomputable section

namespace Cert.Chamfer.Kernel

open Idealize.ShloMosaic Idealize.ShloMosaic.ValueIdx Cert.KernelIdeal Cert.KernelIdeal.Gen Cert.Chamfer

/-- The tile's point r of cloud b, as its three coordinates. -/
def tilePoint (x0 : Vec Ideal S4x3x128 .f32) (b : Fin 4) (r : Fin 128) : Fin 3 → EReal := fun c => x0 (ix3 b c r)

/-- The body's array of distances at (b, r, m). -/
theorem dists_apply (x0 : Vec Ideal S4x3x128 .f32) (x1 : Vec Ideal S4x3x8192 .f32) (b : Fin 4) (r : Fin 128) (m : Fin 8192) :
    k0_pay1 (k0_pay6 x0 x1) (ix3 b r m) = pointDist (tilePoint x0 b r) (point x1 b m) := by
  unfold k0_pay1 k0_pay6
  simp only [Idealize.ShloMosaic.sqrt, maximumf_apply, subf_apply, addf_apply, mulf_apply, broadcast_apply,
    broadcastTo_shapeCast_ab1_apply, broadcastTo_shapeCast_a1c_apply, shapeCast_slice_axis1_apply,
    Ideal.sqrt_def, Ideal.ofBits_def]
  rfl

/-- For each point of the tile, the minimum over the points of G. -/
theorem tileNearest_apply (v : FVec Ideal S4x128x8192 .f32) (b : Fin 4) (r : Fin 128) :
    k0_pay2 v (ix2 b r) = (Finset.univ : Finset (Fin 8192)).fold min inf (fun m => k0_pay1 v (ix3 b r m)) := by
  unfold k0_pay2
  refine (Ideal.multiReduction_minimumf_single (k0_pay1 v) 0x7F800000#32 reduces_S4x128x8192_S4x128 (.inl rfl) rfl
    (ix2 b r)).trans ?_
  refine Finset.fold_congr fun m _ => ?_
  exact congrArg (k0_pay1 v) (funext fun a => Fin.ext (by
    match a with | ⟨0, _⟩ => rfl | ⟨1, _⟩ => rfl | ⟨2, _⟩ => rfl))

/-- For each point of G, the minimum over the points of the tile. -/
theorem tileMin_apply (v : FVec Ideal S4x128x8192 .f32) (b : Fin 4) (m : Fin 8192) :
    k0_pay3 v (ix2 b m) = (Finset.univ : Finset (Fin 128)).fold min inf (fun r => k0_pay1 v (ix3 b r m)) := by
  unfold k0_pay3
  refine (Ideal.multiReduction_minimumf_single (k0_pay1 v) 0x7F800000#32 reduces_S4x128x8192_S4x8192 (.inl rfl) rfl
    (ix2 b m)).trans ?_
  refine Finset.fold_congr fun r _ => ?_
  exact congrArg (k0_pay1 v) (funext fun a => Fin.ext (by
    match a with | ⟨0, _⟩ => rfl | ⟨1, _⟩ => rfl | ⟨2, _⟩ => rfl))

/-- The first tile's minimum is stored as it is. -/
theorem firstMin_eq (v : FVec Ideal S4x128x8192 .f32) : k0_pay4 v = k0_pay3 v := by
  unfold k0_pay4; exact shapeCast_self _ _

/-- A later tile's minimum is met with the running minimum. -/
theorem nextMin_apply (v : FVec Ideal S4x128x8192 .f32) (s : Vec Ideal S4x8192 .f32) (j : S4x8192.Idx) :
    k0_pay5 v s j = min (s j) (k0_pay3 v j) := by
  unfold k0_pay5; rw [shapeCast_self]; rfl

end Cert.Chamfer.Kernel

end
-- ==== Proof.KernelPieces.lean ====
/-
  What each control case of the body leaves in the buffers it stores to, as values of the blocks it loaded.

  The body has three cases along the grid: the first point (the running minimum is set), the middle points (it is
  updated), the last point (it is updated and copied to the result block). In every case each store covers its
  buffer whole, so what the buffer holds afterwards is that store's value: the minimum over G of the tile's
  distances for the tile's block, the tile's minimum or its meet with the old running minimum for the scratch.
  Generic in the float instance.
-/
import proofs.«146092_j26259430047859_1_alg».proof.Proof.Gen.KernelIdeal.Frame
import Idealize.ShloMosaic.Lib.Pipeline.Value
import Idealize.ShloMosaic.Lib.Tactic

noncomputable section

namespace Cert.Chamfer.Kernel

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first point the tile's block of nearest distances is the body's minimum over G of its distances. -/
theorem tile_first (c : Dev nD) (i : grid0.Coords) (arg1 : Memref sig .tc .vmem S4x3x128 .f32) (harg1 : arg1.IsWhole) (arg2 : Memref sig .tc .vmem S4x3x8192 .f32) (harg2 : arg2.IsWhole) (arg3 : Memref sig .tc .vmem S4x128 .f32) (harg3 : arg3.IsWhole) (arg4 : Memref sig .tc .vmem S4x8192 .f32) (harg4 : arg4.IsWhole) (arg5 : Memref sig .tc .vmem S4x8192 .f32) (harg5 : arg5.IsWhole) (hc0 : cond0_0 i) (hc1 : ¬cond0_1 i) (hc2 : ¬cond0_2 i) (x0 : Vec F S4x3x128 .f32) (x1 : Vec F S4x3x8192 .f32) :
    out0_A_2 c i arg1 harg1 arg2 harg2 arg3 harg3 arg4 harg4 arg5 harg5 hc0 hc1 hc2 x0 x1 = k0_pay2 (k0_pay6 x0 x1) := by
  unfold out0_A_2
  rw [View.read_writes_eq_canon _ _ _ (cover0_A_2 c i arg1 harg1 arg2 harg2 arg3 harg3 arg4 harg4 arg5 harg5 hc0 hc1 hc2 x0 x1)]
  unfold kernelRun0_A
  dsimp only
  sl_unfold_words
  rw [View.canon_unit_zero hz2]
  simp only [View.readAt_eq_ld, harg1.read_unread, harg2.read_unread, harg5.read_unread,
    View.ld_unit_zero (S := S4x3x128) hz3, View.ld_unit_zero (S := S4x3x8192) hz3, View.ld_unit_zero (S := S4x8192) hz2]

/-- At the first point the running minimum is set to the tile's minimum. -/
theorem run_first (c : Dev nD) (i : grid0.Coords) (arg1 : Memref sig .tc .vmem S4x3x128 .f32) (harg1 : arg1.IsWhole) (arg2 : Memref sig .tc .vmem S4x3x8192 .f32) (harg2 : arg2.IsWhole) (arg3 : Memref sig .tc .vmem S4x128 .f32) (harg3 : arg3.IsWhole) (arg4 : Memref sig .tc .vmem S4x8192 .f32) (harg4 : arg4.IsWhole) (arg5 : Memref sig .tc .vmem S4x8192 .f32) (harg5 : arg5.IsWhole) (hc0 : cond0_0 i) (hc1 : ¬cond0_1 i) (hc2 : ¬cond0_2 i) (x0 : Vec F S4x3x128 .f32) (x1 : Vec F S4x3x8192 .f32) :
    sout0_A_0 c i arg1 harg1 arg2 harg2 arg3 harg3 arg4 harg4 arg5 harg5 hc0 hc1 hc2 x0 x1 = k0_pay4 (k0_pay6 x0 x1) := by
  unfold sout0_A_0
  rw [View.read_writes_eq_canon _ _ _ (scover0_A_0 c i arg1 harg1 arg2 harg2 arg3 harg3 arg4 harg4 arg5 harg5 hc0 hc1 hc2 x0 x1)]
  unfold kernelRun0_A
  dsimp only
  sl_unfold_words
  rw [View.canon_unit_zero hz2]
  simp only [View.readAt_eq_ld, harg1.read_unread, harg2.read_unread, harg5.read_unread,
    View.ld_unit_zero (S := S4x3x128) hz3, View.ld_unit_zero (S := S4x3x8192) hz3, View.ld_unit_zero (S := S4x8192) hz2]

/-- At a middle point the tile's block is again the minimum over G. -/
theorem tile_mid (c : Dev nD) (i : grid0.Coords) (arg1 : Memref sig .tc .vmem S4x3x128 .f32) (harg1 : arg1.IsWhole) (arg2 : Memref sig .tc .vmem S4x3x8192 .f32) (harg2 : arg2.IsWhole) (arg3 : Memref sig .tc .vmem S4x128 .f32) (harg3 : arg3.IsWhole) (arg4 : Memref sig .tc .vmem S4x8192 .f32) (harg4 : arg4.IsWhole) (arg5 : Memref sig .tc .vmem S4x8192 .f32) (harg5 : arg5.IsWhole) (hc0 : ¬cond0_0 i) (hc1 : cond0_1 i) (hc2 : ¬cond0_2 i) (x0 : Vec F S4x3x128 .f32) (x1 : Vec F S4x3x8192 .f32) (xs0 : Vec F S4x8192 .f32) :
    out0_B_2 c i arg1 harg1 arg2 harg2 arg3 harg3 arg4 harg4 arg5 harg5 hc0 hc1 hc2 x0 x1 xs0 = k0_pay2 (k0_pay6 x0 x1) := by
  unfold out0_B_2
  rw [View.read_writes_eq_canon _ _ _ (cover0_B_2 c i arg1 harg1 arg2 harg2 arg3 harg3 arg4 harg4 arg5 harg5 hc0 hc1 hc2 x0 x1 xs0)]
  unfold kernelRun0_B
  dsimp only
  sl_unfold_words
  rw [View.canon_unit_zero hz2]
  simp only [View.readAt_eq_ld, harg1.read_unread, harg2.read_unread, harg5.read_unread,
    View.ld_unit_zero (S := S4x3x128) hz3, View.ld_unit_zero (S := S4x3x8192) hz3, View.ld_unit_zero (S := S4x8192) hz2]

/-- At a middle point the running minimum left by the point before is met with the tile's. -/
theorem run_mid (c : Dev nD) (i : grid0.Coords) (arg1 : Memref sig .tc .vmem S4x3x128 .f32) (harg1 : arg1.IsWhole) (arg2 : Memref sig .tc .vmem S4x3x8192 .f32) (harg2 : arg2.IsWhole) (arg3 : Memref sig .tc .vmem S4x128 .f32) (harg3 : arg3.IsWhole) (arg4 : Memref sig .tc .vmem S4x8192 .f32) (harg4 : arg4.IsWhole) (arg5 : Memref sig .tc .vmem S4x8192 .f32) (harg5 : arg5.IsWhole) (hc0 : ¬cond0_0 i) (hc1 : cond0_1 i) (hc2 : ¬cond0_2 i) (x0 : Vec F S4x3x128 .f32) (x1 : Vec F S4x3x8192 .f32) (xs0 : Vec F S4x8192 .f32) :
    sout0_B_0 c i arg1 harg1 arg2 harg2 arg3 harg3 arg4 harg4 arg5 harg5 hc0 hc1 hc2 x0 x1 xs0 = k0_pay5 (k0_pay6 x0 x1) xs0 := by
  unfold sout0_B_0
  rw [View.read_writes_eq_canon _ _ _ (scover0_B_0 c i arg1 harg1 arg2 harg2 arg3 harg3 arg4 harg4 arg5 harg5 hc0 hc1 hc2 x0 x1 xs0)]
  unfold kernelRun0_B
  dsimp only
  sl_unfold_words
  rw [View.canon_unit_zero hz2]
  simp only [View.readAt_eq_ld, harg1.read_unread, harg2.read_unread, harg5.read_unread,
    View.ld_unit_zero (S := S4x3x128) hz3, View.ld_unit_zero (S := S4x3x8192) hz3, View.ld_unit_zero (S := S4x8192) hz2]

/-- At the last point the tile's block is again the minimum over G. -/
theorem tile_last (c : Dev nD) (i : grid0.Coords) (arg1 : Memref sig .tc .vmem S4x3x128 .f32) (harg1 : arg1.IsWhole) (arg2 : Memref sig .tc .vmem S4x3x8192 .f32) (harg2 : arg2.IsWhole) (arg3 : Memref sig .tc .vmem S4x128 .f32) (harg3 : arg3.IsWhole) (arg4 : Memref sig .tc .vmem S4x8192 .f32) (harg4 : arg4.IsWhole) (arg5 : Memref sig .tc .vmem S4x8192 .f32) (harg5 : arg5.IsWhole) (hc0 : ¬cond0_0 i) (hc1 : cond0_1 i) (hc2 : cond0_2 i) (x0 : Vec F S4x3x128 .f32) (x1 : Vec F S4x3x8192 .f32) (xs0 : Vec F S4x8192 .f32) :
    out0_C_2 c i arg1 harg1 arg2 harg2 arg3 harg3 arg4 harg4 arg5 harg5 hc0 hc1 hc2 x0 x1 xs0 = k0_pay2 (k0_pay6 x0 x1) := by
  unfold out0_C_2
  rw [View.read_writes_eq_canon _ _ _ (cover0_C_2 c i arg1 harg1 arg2 harg2 arg3 harg3 arg4 harg4 arg5 harg5 hc0 hc1 hc2 x0 x1 xs0)]
  unfold kernelRun0_C
  dsimp only
  sl_unfold_words
  rw [View.canon_unit_zero hz2]
  simp only [View.readAt_eq_ld, harg1.read_unread, harg2.read_unread, harg5.read_unread,
    View.ld_unit_zero (S := S4x3x128) hz3, View.ld_unit_zero (S := S4x3x8192) hz3, View.ld_unit_zero (S := S4x8192) hz2]

/-- At the last point the running minimum is met with the tile's as before. -/
theorem run_last (c : Dev nD) (i : grid0.Coords) (arg1 : Memref sig .tc .vmem S4x3x128 .f32) (harg1 : arg1.IsWhole) (arg2 : Memref sig .tc .vmem S4x3x8192 .f32) (harg2 : arg2.IsWhole) (arg3 : Memref sig .tc .vmem S4x128 .f32) (harg3 : arg3.IsWhole) (arg4 : Memref sig .tc .vmem S4x8192 .f32) (harg4 : arg4.IsWhole) (arg5 : Memref sig .tc .vmem S4x8192 .f32) (harg5 : arg5.IsWhole) (hc0 : ¬cond0_0 i) (hc1 : cond0_1 i) (hc2 : cond0_2 i) (x0 : Vec F S4x3x128 .f32) (x1 : Vec F S4x3x8192 .f32) (xs0 : Vec F S4x8192 .f32) :
    sout0_C_0 c i arg1 harg1 arg2 harg2 arg3 harg3 arg4 harg4 arg5 harg5 hc0 hc1 hc2 x0 x1 xs0 = k0_pay5 (k0_pay6 x0 x1) xs0 := by
  unfold sout0_C_0
  rw [View.read_writes_eq_canon _ _ _ (scover0_C_0 c i arg1 harg1 arg2 harg2 arg3 harg3 arg4 harg4 arg5 harg5 hc0 hc1 hc2 x0 x1 xs0)]
  unfold kernelRun0_C
  dsimp only
  sl_unfold_words
  rw [View.canon_unit_zero hz2]
  simp only [View.readAt_eq_ld, harg1.read_unread, harg2.read_unread, harg5.read_unread,
    View.ld_unit_zero (S := S4x3x128) hz3, View.ld_unit_zero (S := S4x3x8192) hz3, View.ld_unit_zero (S := S4x8192) hz2]

/-- At the last point the result block is the running minimum just updated, read back. -/
theorem result_last (c : Dev nD) (i : grid0.Coords) (arg1 : Memref sig .tc .vmem S4x3x128 .f32) (harg1 : arg1.IsWhole) (arg2 : Memref sig .tc .vmem S4x3x8192 .f32) (harg2 : arg2.IsWhole) (arg3 : Memref sig .tc .vmem S4x128 .f32) (harg3 : arg3.IsWhole) (arg4 : Memref sig .tc .vmem S4x8192 .f32) (harg4 : arg4.IsWhole) (arg5 : Memref sig .tc .vmem S4x8192 .f32) (harg5 : arg5.IsWhole) (hc0 : ¬cond0_0 i) (hc1 : cond0_1 i) (hc2 : cond0_2 i) (x0 : Vec F S4x3x128 .f32) (x1 : Vec F S4x3x8192 .f32) (xs0 : Vec F S4x8192 .f32) :
    out0_C_3 c i arg1 harg1 arg2 harg2 arg3 harg3 arg4 harg4 arg5 harg5 hc0 hc1 hc2 x0 x1 xs0 = k0_pay5 (k0_pay6 x0 x1) xs0 := by
  unfold out0_C_3
  rw [View.read_writes_eq_canon _ _ _ (cover0_C_3 c i arg1 harg1 arg2 harg2 arg3 harg3 arg4 harg4 arg5 harg5 hc0 hc1 hc2 x0 x1 xs0)]
  unfold kernelRun0_C
  dsimp only
  sl_unfold_words
  rw [View.canon_unit_zero hz2, View.readCov_unit_zero (S := S4x8192) _ hz2]
  simp only [View.readAt_eq_ld, harg1.read_unread, harg2.read_unread, harg5.read_unread,
    View.ld_unit_zero (S := S4x3x128) hz3, View.ld_unit_zero (S := S4x3x8192) hz3, View.ld_unit_zero (S := S4x8192) hz2]

end Cert.Chamfer.Kernel

end
-- ==== Proof.KernelBlocks.lean ====
/-
  The kernel's two result arrays are the nearest-point distances of `Chamfer.lean`.

  Point t of the grid holds the t-th tile of 128 points of P and the whole of G. Its block of the first result is
  the minimum over G for those 128 points, so the blocks, which tile the array, make it `nearestOfG`. The scratch
  carries the minimum over the points of P seen so far: after point t it is the running minimum below 128 (t + 1)
  (by induction along the grid, with `RunMin`), and the last point copies it to the second result's one block,
  which is therefore `nearestOfP`.
-/
import proofs.«146092_j26259430047859_1_alg».proof.Proof.Gen.KernelIdeal.Frame
import proofs.«146092_j26259430047859_1_alg».proof.Proof.KernelPayload
import proofs.«146092_j26259430047859_1_alg».proof.Proof.KernelPieces
import Idealize.ShloMosaic.Lib.Pipeline.Value

noncomputable section

namespace Cert.Chamfer.Kernel

open Idealize.ShloMosaic Idealize.ShloMosaic.TcCoe Idealize.SL.Sem Idealize.ShloMosaic.ValueIdx
open Cert.KernelIdeal Cert.KernelIdeal.Gen Cert.Chamfer
open Idealize.ShloMosaic.Pipeline (Dat)

variable (m : (ℓ : Loc nD τ sig) → Buf (Elt Ideal) ℓ)

/-- The two clouds as the region finds them, and what the two input windows hold at point t. -/
abbrev cloudP (c : Dev nD) : Vec Ideal S4x3x8192 .f32 := V m c main_arg0
abbrev cloudG (c : Dev nD) : Vec Ideal S4x3x8192 .f32 := V m c main_arg1
abbrev tileP (c : Dev nD) (t : Fin cfg0.N) : Vec Ideal S4x3x128 .f32 := iblk m c 0 t
abbrev allG (c : Dev nD) (t : Fin cfg0.N) : Vec Ideal S4x3x8192 .f32 := iblk m c 1 t

theorem lt64 (t : Fin cfg0.N) : t.val < 64 := lt_of_lt_of_eq t.isLt (show cfg0.N = 64 from N_0)

/-- The point of P that is point r of tile t. -/
def col (t : Fin cfg0.N) (r : Fin 128) : Fin 8192 :=
  ⟨128 * t.val + r.val, by have := lt64 t; have := r.isLt; omega⟩

/-- The printed index maps over the grid: P's window moves along the points, the tile result's with it, G's and the
    second result's stay. -/
theorem idx_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val
    ∧ win0_3.index t (0 : Fin 2) = 0 ∧ win0_3.index t (1 : Fin 2) = 0 :=
  (by decide +kernel : ∀ t : Fin grid0.N, _)

/-- The tile of P at point t holds the points 128 t … 128 t + 127. -/
theorem tileP_apply (c : Dev nD) (t : Fin cfg0.N) (b : Fin 4) (k : Fin 3) (r : Fin 128) :
    tileP m c t (ix3 b k r) = cloudP m c (ix3 b k (col t r)) := by
  obtain ⟨e0, e1, e2, -⟩ := idx_facts t
  show V m c main_arg0 (((cfg0.win 0).blk t).view.emb (ix3 b k r)) = V m c main_arg0 (ix3 b k (col t r))
  refine congrArg (V m c main_arg0) (funext fun a => Fin.ext ?_)
  match a with
  | ⟨0, _⟩ => show win0_0.index t (0 : Fin 3) * 4 + 1 * b.val = b.val; omega
  | ⟨1, _⟩ => show win0_0.index t (1 : Fin 3) * 3 + 1 * k.val = k.val; omega
  | ⟨2, _⟩ => show win0_0.index t (2 : Fin 3) * 128 + 1 * r.val = 128 * t.val + r.val; omega

/-- G's window holds all of G at every point. -/
theorem allG_apply (c : Dev nD) (t : Fin cfg0.N) (b : Fin 4) (k : Fin 3) (n : Fin 8192) :
    allG m c t (ix3 b k n) = cloudG m c (ix3 b k n) := by
  obtain ⟨-, -, -, e0, e1, e2, -⟩ := idx_facts t
  show V m c main_arg1 (((cfg0.win 1).blk t).view.emb (ix3 b k n)) = V m c main_arg1 (ix3 b k n)
  refine congrArg (V m c main_arg1) (funext fun a => Fin.ext ?_)
  match a with
  | ⟨0, _⟩ => show win0_1.index t (0 : Fin 3) * 4 + 1 * b.val = b.val; omega
  | ⟨1, _⟩ => show win0_1.index t (1 : Fin 3) * 3 + 1 * k.val = k.val; omega
  | ⟨2, _⟩ => show win0_1.index t (2 : Fin 3) * 8192 + 1 * n.val = n.val; omega

/-- The body's distances at point t are the distances of the tile's points to the points of G. -/
theorem tileDist (c : Dev nD) (t : Fin cfg0.N) (b : Fin 4) (r : Fin 128) (n : Fin 8192) :
    k0_pay1 (k0_pay6 (tileP m c t) (allG m c t)) (ix3 b r n) = dist (cloudP m c) (cloudG m c) b (col t r) n :=
  (dists_apply (tileP m c t) (allG m c t) b r n).trans
    (congrArg₂ pointDist (funext fun k => tileP_apply m c t b k r) (funext fun k => allG_apply m c t b k n))

/-! ## What each point leaves, through the three cases -/

/-- Every point's block of the first result is the minimum over G of the body's distances. -/
theorem tile_at (c : Dev nD) (t : Fin cfg0.N) :
    (outsAt0 m c t.val t.isLt).1 = k0_pay2 (k0_pay6 (tileP m c t) (allG m c t)) := by
  have hN := lt64 t
  by_cases h0 : t.val % 64 = 0
  · rw [outsAt0_A m c t h0 (by omega) (by omega)]; dsimp only
    exact tile_first (F := Ideal) c (grid0.coords t) (ms0_0 t) (hs0_0 t) (ms0_1 t) (hs0_1 t) (ms0_2 t) (hs0_2 t)
      (ms0_3 t) (hs0_3 t) scM0_0 (Memref.isWhole_whole _) _ _ _ (iblk m c 0 t) (iblk m c 1 t)
  · by_cases h2 : t.val % 64 = 63
    · rw [outsAt0_C m c t h0 (by omega) h2]; dsimp only
      exact tile_last (F := Ideal) c (grid0.coords t) (ms0_0 t) (hs0_0 t) (ms0_1 t) (hs0_1 t) (ms0_2 t) (hs0_2 t)
        (ms0_3 t) (hs0_3 t) scM0_0 (Memref.isWhole_whole _) _ _ _ (iblk m c 0 t) (iblk m c 1 t)
        (outsAt0 m c (t.val - 1) (Nat.lt_of_le_of_lt (Nat.sub_le _ _) t.isLt)).2.2
    · rw [outsAt0_B m c t h0 (by omega) h2]; dsimp only
      exact tile_mid (F := Ideal) c (grid0.coords t) (ms0_0 t) (hs0_0 t) (ms0_1 t) (hs0_1 t) (ms0_2 t) (hs0_2 t)
        (ms0_3 t) (hs0_3 t) scM0_0 (Memref.isWhole_whole _) _ _ _ (iblk m c 0 t) (iblk m c 1 t)
        (outsAt0 m c (t.val - 1) (Nat.lt_of_le_of_lt (Nat.sub_le _ _) t.isLt)).2.2

/-- The first point sets the running minimum to its tile's minimum. -/
theorem scratch_first (c : Dev nD) (t : Fin cfg0.N) (h0 : t.val = 0) :
    (outsAt0 m c t.val t.isLt).2.2 = k0_pay3 (k0_pay6 (tileP m c t) (allG m c t)) := by
  rw [outsAt0_A m c t (by omega) (by omega) (by omega)]; dsimp only
  exact (run_first (F := Ideal) c (grid0.coords t) (ms0_0 t) (hs0_0 t) (ms0_1 t) (hs0_1 t) (ms0_2 t) (hs0_2 t)
    (ms0_3 t) (hs0_3 t) scM0_0 (Memref.isWhole_whole _) _ _ _ (iblk m c 0 t) (iblk m c 1 t)).trans
    (firstMin_eq _)

/-- Every later point meets the running minimum the point before left with its tile's minimum. -/
theorem scratch_next (c : Dev nD) (t : Fin cfg0.N) (h1 : 1 ≤ t.val) :
    (outsAt0 m c t.val t.isLt).2.2 = k0_pay5 (k0_pay6 (tileP m c t) (allG m c t))
      (outsAt0 m c (t.val - 1) (Nat.lt_of_le_of_lt (Nat.sub_le _ _) t.isLt)).2.2 := by
  have hN := lt64 t
  by_cases h2 : t.val % 64 = 63
  · rw [outsAt0_C m c t (by omega) h1 h2]; dsimp only
    exact run_last (F := Ideal) c (grid0.coords t) (ms0_0 t) (hs0_0 t) (ms0_1 t) (hs0_1 t) (ms0_2 t) (hs0_2 t)
      (ms0_3 t) (hs0_3 t) scM0_0 (Memref.isWhole_whole _) _ _ _ (iblk m c 0 t) (iblk m c 1 t)
      (outsAt0 m c (t.val - 1) (Nat.lt_of_le_of_lt (Nat.sub_le _ _) t.isLt)).2.2
  · rw [outsAt0_B m c t (by omega) h1 h2]; dsimp only
    exact run_mid (F := Ideal) c (grid0.coords t) (ms0_0 t) (hs0_0 t) (ms0_1 t) (hs0_1 t) (ms0_2 t) (hs0_2 t)
      (ms0_3 t) (hs0_3 t) scM0_0 (Memref.isWhole_whole _) _ _ _ (iblk m c 0 t) (iblk m c 1 t)
      (outsAt0 m c (t.val - 1) (Nat.lt_of_le_of_lt (Nat.sub_le _ _) t.isLt)).2.2

/-- The last point's block of the second result is the running minimum it has just updated. -/
theorem result_at_last (c : Dev nD) (t : Fin cfg0.N) (h2 : t.val = 63) :
    (outsAt0 m c t.val t.isLt).2.1 = (outsAt0 m c t.val t.isLt).2.2 := by
  rw [outsAt0_C m c t (by omega) (by omega) (by omega)]; dsimp only
  exact (result_last (F := Ideal) c (grid0.coords t) (ms0_0 t) (hs0_0 t) (ms0_1 t) (hs0_1 t) (ms0_2 t) (hs0_2 t)
    (ms0_3 t) (hs0_3 t) scM0_0 (Memref.isWhole_whole _) _ _ _ (iblk m c 0 t) (iblk m c 1 t)
    (outsAt0 m c (t.val - 1) (Nat.lt_of_le_of_lt (Nat.sub_le _ _) t.isLt)).2.2).trans
    (run_last (F := Ideal) c (grid0.coords t) (ms0_0 t) (hs0_0 t) (ms0_1 t) (hs0_1 t) (ms0_2 t) (hs0_2 t)
    (ms0_3 t) (hs0_3 t) scM0_0 (Memref.isWhole_whole _) _ _ _ (iblk m c 0 t) (iblk m c 1 t)
    (outsAt0 m c (t.val - 1) (Nat.lt_of_le_of_lt (Nat.sub_le _ _) t.isLt)).2.2).symm

/-! ## The first result: the blocks tile `nearestOfG` -/

/-- The block of point t at one of its entries. -/
theorem tileRow (c : Dev nD) (t : Fin cfg0.N) (y : S4x128.Idx) :
    k0_pay2 (k0_pay6 (tileP m c t) (allG m c t)) y
      = nearestOfG (cloudP m c) (cloudG m c) (ix2 (y 0) (col t (y 1))) := by
  obtain ⟨b, r, rfl⟩ : ∃ (b : Fin 4) (r : Fin 128), y = ix2 b r := ⟨y 0, y 1, eq_ix2 y⟩
  rw [tileNearest_apply]
  exact Finset.fold_congr fun n _ => tileDist m c t b r n

/-- What point t writes back is block t of `nearestOfG`. -/
theorem flushedTile_eq (c : Dev nD) (t : Fin cfg0.N) :
    (dats m 0 c).flushed 2 t
      = ((cfg0.win 2).blk t).view.read (Elt Ideal) (nearestOfG (cloudP m c) (cloudG m c)) := by
  obtain ⟨-, -, -, -, -, -, e0, e1, -⟩ := idx_facts t
  show (cfg0.win 2).cut (grid0.coords t) ((dats m 0 c).after 2 t) = _
  rw [after0_2, tile_at]
  funext j
  refine (tileRow m c t j).trans (congrArg (nearestOfG (cloudP m c) (cloudG m c)) (funext fun a => Fin.ext ?_))
  match a with
  | ⟨0, _⟩ => show (j 0).val = win0_2.index t (0 : Fin 2) * 4 + 1 * (j 0).val; omega
  | ⟨1, _⟩ => show 128 * t.val + (j 1).val = win0_2.index t (1 : Fin 2) * 128 + 1 * (j 1).val; omega

/-- An index of the first result is in point t's block iff its coordinates are in the block's ranges. -/
theorem mem_tile (t : Fin cfg0.N) (i : S4x8192.Idx) :
    i ∈ ((cfg0.win 2).blk t).view.set ↔ ∀ a : Fin 2, win0_2.index t a * S4x128.size a ≤ (i a).val
      ∧ (i a).val < win0_2.index t a * S4x128.size a + S4x128.size a := by
  show i ∈ ((View.whole main_v0_0).slice (win0_2.rect t)).set ↔ _
  rw [View.set_slice_whole, Rect.mem_set_unit]
  exact Iff.rfl

/-- The first result after the run. -/
theorem final_nearestOfG (c : Dev nD) :
    (dats m 0 c).arrAt 2 cfg0.N = nearestOfG (cloudP m c) (cloudG m c) :=
  (dats m 0 c).arrAt_eq_of_cover 2 _ (fun t _ => flushedTile_eq m c t) fun i => by
    have hi0 : (i 0).val < 4 := (i 0).isLt
    have hi1 : (i 1).val < 8192 := (i 1).isLt
    have hN : cfg0.N = 64 := N_0
    refine ⟨⟨(i 1).val / 128, by omega⟩, flush0_2 _, ?_⟩
    obtain ⟨-, -, -, -, -, -, e0, e1, -⟩ := idx_facts ⟨(i 1).val / 128, by omega⟩
    rw [mem_tile]
    intro a
    match a with
    | ⟨0, _⟩ =>
      show win0_2.index _ (0 : Fin 2) * 4 ≤ (i 0).val ∧ (i 0).val < win0_2.index _ (0 : Fin 2) * 4 + 4
      rw [e0]; omega
    | ⟨1, _⟩ =>
      show win0_2.index _ (1 : Fin 2) * 128 ≤ (i 1).val ∧ (i 1).val < win0_2.index _ (1 : Fin 2) * 128 + 128
      rw [e1]; dsimp only; omega

/-! ## The second result: the running minimum, copied out at the last point -/

/-- The tile's minimum at (b, n): over the tile's 128 points of P, the distance to point n of G. -/
theorem tileMin (c : Dev nD) (t : Fin cfg0.N) (b : Fin 4) (n : Fin 8192) :
    k0_pay3 (k0_pay6 (tileP m c t) (allG m c t)) (ix2 b n)
      = (Finset.univ : Finset (Fin 128)).fold min inf
          (fun r => dist (cloudP m c) (cloudG m c) b (col t r) n) := by
  rw [tileMin_apply]
  exact Finset.fold_congr fun r _ => tileDist m c t b r n

/-- After point k the scratch holds, at (b, n), the minimum over the points of P below 128 k + 128. -/
theorem running (c : Dev nD) : ∀ (k : ℕ) (h : k < cfg0.N) (b : Fin 4) (n : Fin 8192),
    RunMin inf (fun p => dist (cloudP m c) (cloudG m c) b p n) (128 * k + 128)
      ((outsAt0 m c k h).2.2 (ix2 b n))
  | 0, h, b, n => by
    rw [scratch_first m c ⟨0, h⟩ rfl, tileMin]
    exact runMin_first inf (fun p => dist (cloudP m c) (cloudG m c) b p n) (128 * 0) 128 rfl (by norm_num)
  | k + 1, h, b, n => by
    have hN : k + 1 < 64 := lt64 ⟨k + 1, h⟩
    have ih := running c k (Nat.lt_of_succ_lt h) b n
    rw [scratch_next m c ⟨k + 1, h⟩ (Nat.succ_le_succ (Nat.zero_le k)), nextMin_apply, tileMin]
    have e : 128 * k + 128 = 128 * (k + 1) := by omega
    rw [e] at ih
    exact runMin_step inf (fun p => dist (cloudP m c) (cloudG m c) b p n) (128 * (k + 1)) 128 (by omega) _ ih

/-- After the last point the scratch is `nearestOfP`. -/
theorem lastScratch (c : Dev nD) (t : Fin cfg0.N) (h63 : t.val = 63) (y : S4x8192.Idx) :
    (outsAt0 m c t.val t.isLt).2.2 y = nearestOfP (cloudP m c) (cloudG m c) y := by
  obtain ⟨b, n, rfl⟩ : ∃ (b : Fin 4) (n : Fin 8192), y = ix2 b n := ⟨y 0, y 1, eq_ix2 y⟩
  exact runMin_full inf (fun p => dist (cloudP m c) (cloudG m c) b p n) (128 * t.val + 128) (by omega) _
    (running m c t.val t.isLt b n)

/-- The one write-back of the second result, at the last point, writes `nearestOfP`. -/
theorem flushedAll_eq (c : Dev nD) (t : Fin cfg0.N) (hf : (cfg0.win 3).flush t = true) :
    (dats m 0 c).flushed 3 t
      = ((cfg0.win 3).blk t).view.read (Elt Ideal) (nearestOfP (cloudP m c) (cloudG m c)) := by
  have hN := lt64 t
  have h63 : t.val = 63 := by have := (flush0_3 t).mp hf; omega
  obtain ⟨-, -, -, -, -, -, -, -, e0, e1⟩ := idx_facts t
  show (cfg0.win 3).cut (grid0.coords t) ((dats m 0 c).after 3 t) = _
  rw [after0_3, result_at_last m c t h63]
  funext j
  refine (lastScratch m c t h63 j).trans (congrArg (nearestOfP (cloudP m c) (cloudG m c)) (funext fun a => Fin.ext ?_))
  match a with
  | ⟨0, _⟩ => show (j 0).val = win0_3.index t (0 : Fin 2) * 4 + 1 * (j 0).val; omega
  | ⟨1, _⟩ => show (j 1).val = win0_3.index t (1 : Fin 2) * 8192 + 1 * (j 1).val; omega

/-- An index of the second result is in point t's block iff its coordinates are in the block's ranges. -/
theorem mem_all (t : Fin cfg0.N) (i : S4x8192.Idx) :
    i ∈ ((cfg0.win 3).blk t).view.set ↔ ∀ a : Fin 2, win0_3.index t a * S4x8192.size a ≤ (i a).val
      ∧ (i a).val < win0_3.index t a * S4x8192.size a + S4x8192.size a := by
  show i ∈ ((View.whole main_v0_1).slice (win0_3.rect t)).set ↔ _
  rw [View.set_slice_whole, Rect.mem_set_unit]
  exact Iff.rfl

/-- The second result after the run. -/
theorem final_nearestOfP (c : Dev nD) :
    (dats m 0 c).arrAt 3 cfg0.N = nearestOfP (cloudP m c) (cloudG m c) :=
  (dats m 0 c).arrAt_eq_of_cover 3 _ (flushedAll_eq m c) fun i => by
    have hi0 : (i 0).val < 4 := (i 0).isLt
    have hi1 : (i 1).val < 8192 := (i 1).isLt
    have hN : cfg0.N = 64 := N_0
    have h63 : 63 < cfg0.N := by omega
    refine ⟨⟨63, h63⟩, (flush0_3 _).mpr rfl, ?_⟩
    obtain ⟨-, -, -, -, -, -, -, -, e0, e1⟩ := idx_facts ⟨63, h63⟩
    rw [mem_all]
    intro a
    match a with
    | ⟨0, _⟩ =>
      show win0_3.index _ (0 : Fin 2) * 4 ≤ (i 0).val ∧ (i 0).val < win0_3.index _ (0 : Fin 2) * 4 + 4
      rw [e0]; omega
    | ⟨1, _⟩ =>
      show win0_3.index _ (1 : Fin 2) * 8192 ≤ (i 1).val ∧ (i 1).val < win0_3.index _ (1 : Fin 2) * 8192 + 8192
      rw [e1]; omega

end Cert.Chamfer.Kernel

end
-- ==== Proof.KernelRun.lean ====
/-
  The kernel's run, read: its one result is the Chamfer loss of its two arguments.

  After the region the host sums each of the two result arrays, divides each sum by 65536 = 4 · (8192 + 8192) and
  adds the quotients (`loss`). The region leaves the two arrays at `nearestOfP` and `nearestOfG`
  (KernelBlocks), so the result is `loss` of those.
-/
import proofs.«146092_j26259430047859_1_alg».proof.Proof.KernelBlocks
import Idealize.ShloMosaic.Lib.StableHlo.Run

noncomputable section

namespace Cert.Chamfer

open Idealize.ShloMosaic Idealize.ShloMosaic.TcCoe Idealize.SL.Sem Idealize.ShloMosaic.ValueIdx
open Cert.KernelIdeal Cert.KernelIdeal.Gen

/-- The mean of the two families of nearest distances, as both programs spell it: each family summed from zero,
    each sum divided by 65536, the two quotients added. -/
def loss (z z2 : Vec Ideal S4x8192 .f32) : Vec Ideal S_ .f32 :=
  addf
    (Host.divf (Host.reduceAdd (F := Ideal) z (constant (F := Ideal) S_ .f32 0x00000000#32) reducesTo_S4x8192_S_d0_1 h_S_)
      (constant (F := Ideal) S_ .f32 0x47800000#32))
    (Host.divf (Host.reduceAdd (F := Ideal) z2 (constant (F := Ideal) S_ .f32 0x00000000#32) reducesTo_S4x8192_S_d0_1 h_S_)
      (constant (F := Ideal) S_ .f32 0x47800000#32))

namespace Kernel

variable (m : (ℓ : Loc nD τ sig) → Buf (Elt Ideal) ℓ) (ρ : Dev nD → PrngReg)

/-- What the host lines after the region leave in the result buffer. -/
theorem tail_eq (c : Dev nD) :
    Pipeline.afterTail₀ cfgs (dats m) 0 (V0 m) [hostOps1] c main_v5
      = loss (nearestOfP (cloudP m c) (cloudG m c)) (nearestOfG (cloudP m c) (cloudG m c)) := by
  unfold Pipeline.afterTail₀
  show StableHlo.after hostOps1 _ (Proc.devRef .tc main_v5) = _
  after_results
  rw [show Pipeline.withArrays spec0 c (V0 m c) (fun w => (dats m 0 c).arrAt w cfg0.N) (Proc.devRef .tc main_v0_1)
        = nearestOfP (cloudP m c) (cloudG m c) from
      (Pipeline.withArrays_arr spec0 launch0.win.arr_inj c _ _ 3).trans (final_nearestOfP m c),
    show Pipeline.withArrays spec0 c (V0 m c) (fun w => (dats m 0 c).arrAt w cfg0.N) (Proc.devRef .tc main_v0_0)
        = nearestOfG (cloudP m c) (cloudG m c) from
      (Pipeline.withArrays_arr spec0 launch0.win.arr_inj c _ _ 2).trans (final_nearestOfG m c)]
  rfl

/-- The kernel's run: the result at the loss of the arguments' nearest distances, the arguments unchanged. -/
theorem run : θ_run defs (onTc (τ := τ) (main (F := Ideal))) ⟨m, fun _ => 0, ρ⟩ fun r => ∀ c : Dev nD,
      r.2.mem ((c.tc : Thread nD τ).loc main_v5)
        = loss (nearestOfP (m ((c.tc : Thread nD τ).loc main_arg0)) (m ((c.tc : Thread nD τ).loc main_arg1)))
            (nearestOfG (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Kernel

end Cert.Chamfer

end
-- ==== Proof.lean ====
/-
  The Chamfer loss computed tile by tile is the Chamfer loss.

  Both programs take two batches of four clouds of 8192 points of ℝ³, P and G, and return one number: the sum
  over the points of G of the distance to the nearest point of P, divided by 65536, plus the same with the roles
  exchanged. The distance of two points is sqrt (max (|p|² + |g|² − 2⟨p, g⟩, ε)) in both, coordinate by
  coordinate in the same order (Chamfer.lean).

  The reference forms all 4 · 8192 · 8192 distances and reduces them along either axis (RefSide.lean). The kernel
  walks P in 64 tiles of 128 points with all of G resident: each tile's points get their nearest point of G at
  once, and the nearest point of P for each point of G is a running minimum kept across the tiles and copied out
  at the last one (KernelPayload, KernelPieces, KernelBlocks, KernelRun). A minimum taken tile by tile is the
  minimum over everything, by the universal property of `min` alone; sums and products on either side are the
  same terms in the same order. So nothing here needs the inputs to be finite, and the precondition is not opened.

  The three frames: the two kernel programs' are their frame runs; the reference's is its run with the result
  dropped. No operation was rewritten by the idealization, so `preserves` is trivial.
-/
import proofs.«146092_j26259430047859_1_alg».proof.Defs
import proofs.«146092_j26259430047859_1_alg».proof.Proof.Gen.Kernel
import proofs.«146092_j26259430047859_1_alg».proof.Proof.Gen.Kernel.Frame
import proofs.«146092_j26259430047859_1_alg».proof.Proof.Gen.KernelIdeal
import proofs.«146092_j26259430047859_1_alg».proof.Proof.Gen.KernelIdeal.Frame
import proofs.«146092_j26259430047859_1_alg».proof.Proof.Gen.ReferenceIdeal
import proofs.«146092_j26259430047859_1_alg».proof.Proof.Gen.ReferenceIdeal.Run
import proofs.«146092_j26259430047859_1_alg».proof.Proof.Gen.ReferenceIdeal.Read
import proofs.«146092_j26259430047859_1_alg».proof.Proof.Gen.Pre_finite_inputs
import proofs.«146092_j26259430047859_1_alg».proof.Proof.RefSide
import proofs.«146092_j26259430047859_1_alg».proof.Proof.KernelRun
import Idealize.ShloMosaic.Adequacy
import Idealize.ShloMosaic.Init

noncomputable section

namespace Cert.Proof

open Idealize.ShloMosaic Idealize.SL.Sem Cert.Chamfer

/-- The reference's result is the loss of its two families of minima, which are the nearest distances. -/
theorem reference_result (P G : Cloud.Idx → EReal) :
    Cert.ReferenceIdeal.Read.val_main_v22 (F := Ideal) P G = loss (nearestOfP P G) (nearestOfG P G) := by
  rw [← Ref.nearestOfP_eq, ← Ref.nearestOfG_eq]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the loss of the nearest distances of arguments that agree. -/
theorem algebraic : Cert.algebraic_KernelIdeal_ReferenceIdeal := by
  intro m ρ m' ρ' _ hagree
  refine ⟨_, Cert.Chamfer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, reference_result, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
